-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x768 : Shape := ⟨3, ![8, 8192, 768]⟩
abbrev S384x768 : Shape := ⟨2, ![384, 768]⟩
abbrev S768x384 : Shape := ⟨2, ![768, 384]⟩
abbrev S768 : Shape := ⟨1, ![768]⟩
abbrev S384 : Shape := ⟨1, ![384]⟩
abbrev S_ : Shape := ⟨0, ![]⟩

class Facts : Prop where
  bcast_S_S8x8192x768 : S_.BroadcastsInDim S8x8192x768 (![] : Fin 0 → Fin S8x8192x768.rank)
  reducesTo_S8x8192x768_S_d0_1_2 : S8x8192x768.ReducesTo [0, 1, 2] S_
  h_S_ : 0 < S_.numel
  bcast_S_S384x768 : S_.BroadcastsInDim S384x768 (![] : Fin 0 → Fin S384x768.rank)
  reducesTo_S384x768_S_d0_1 : S384x768.ReducesTo [0, 1] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S768 .f32) (main_arg5 : FVec F S384 .f32) (main_arg6 : FVec F S384 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  main_v33

def fn {F : FTy → Type} [FloatOps F] (main_arg0 : FVec F S8x8192x768 .f32) (main_arg1 : FVec F S384x768 .f32) (main_arg2 : FVec F S768x384 .f32) (main_arg3 : FVec F S768 .f32) (main_arg4 : FVec F S768 .f32) (main_arg5 : FVec F S384 .f32) (main_arg6 : FVec F S384 .f32) : IVec S_ 1 :=
  let main_v0 : FVec F S8x8192x768 .f32 := Host.absf main_arg0
  let main_cst : FVec F S_ .f32 := constant S_ .f32 0x7F800000#32
  let main_v1 : FVec F S8x8192x768 .f32 := broadcastInDim S8x8192x768 ![] bcast_S_S8x8192x768 main_cst
  let main_v2 : IVec S8x8192x768 1 := cmpf .olt main_v0 main_v1
  let main_c : IVec S_ 1 := constantI S_ 1 1#1
  let main_v3 : IVec S_ 1 := (fun x v => Host.reduce IntOp.andi x v reducesTo_S8x8192x768_S_d0_1_2 h_S_) main_v2 main_c
  let main_v4 : FVec F S384x768 .f32 := Host.absf main_arg1
  let main_cst_0 : FVec F S_ .f32 := constant S_ .f32 0x7F800000#32
  let main_v5 : FVec F S384x768 .f32 := broadcastInDim S384x768 ![] bcast_S_S384x768 main_cst_0
  let main_v6 : IVec S384x768 1 := cmpf .olt main_v4 main_v5
  let main_c_1 : IVec S_ 1 := constantI S_ 1 1#1
  let main_v7 : IVec S_ 1 := (fun x v => Host.reduce IntOp.andi x v reducesTo_S384x768_S_d0_1 h_S_) main_v6 main_c_1
  let main_v8 : IVec S_ 1 := andi main_v3 main_v7
  let main_v9 : FVec F S768x384 .f32 := Host.absf main_arg2
  let main_cst_2 : FVec F S_ .f32 := constant S_ .f32 0x7F800000#32
  let main_v10 : FVec F S768x384 .f32 := broadcastInDim S768x384 ![] bcast_S_S768x384 main_cst_2
  let main_v11 : IVec S768x384 1 := cmpf .olt main_v9 main_v10
  let main_c_3 : IVec S_ 1 := constantI S_ 1 1#1
  let main_v12 : IVec S_ 1 := (fun x v => Host.reduce IntOp.andi x v reducesTo_S768x384_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_v13 main_v16
-- ==== Kernel.lean ====
abbrev S8x8192x768 : Shape := ⟨3, ![8, 8192, 768]⟩
abbrev S384x768 : Shape := ⟨2, ![384, 768]⟩
abbrev S768x384 : Shape := ⟨2, ![768, 384]⟩
abbrev S768 : Shape := ⟨1, ![768]⟩
abbrev S384 : Shape := ⟨1, ![384]⟩
abbrev S65536x768 : Shape := ⟨2, ![65536, 768]⟩
abbrev S1x768 : Shape := ⟨2, ![1, 768]⟩
abbrev S1x384 : Shape := ⟨2, ![1, 384]⟩
abbrev S1024x768 : Shape := ⟨2, ![1024, 768]⟩
abbrev S1024 : Shape := ⟨1, ![1024]⟩
abbrev S1024x1 : Shape := ⟨2, ![1024, 1]⟩
abbrev S1024x384 : Shape := ⟨2, ![1024, 384]⟩

abbrev nBuf : Space → Nat
  | .hbm => 18
  | .vmem => 10
  | .smem => 0
  | _ => 0

abbrev bufTy : (tb : Table) → Fin (tcTables nBuf tb) → BufTy
  | .hbm, ⟨0, _⟩ => ⟨S8x8192x768, .f32⟩
  | .hbm, ⟨1, _⟩ => ⟨S384x768, .f32⟩
  | .hbm, ⟨2, _⟩ => ⟨S768x384, .f32⟩
  | .hbm, ⟨3, _⟩ => ⟨S768, .f32⟩
  | .hbm, ⟨4, _⟩ => ⟨S768, .f32⟩
  | .hbm, ⟨5, _⟩ => ⟨S384, .f32⟩
  | .hbm, ⟨6, _⟩ => ⟨S384, .f32⟩
  | .hbm, ⟨7, _⟩ => ⟨S65536x768, .f32⟩
  | .hbm, ⟨8, _⟩ => ⟨S768x384, .f32⟩
  | .hbm, ⟨9, _⟩ => ⟨S768x384, .bf16⟩
  | .hbm, ⟨10, _⟩ => ⟨S384x768, .f32⟩
  | .hbm, ⟨11, _⟩ => ⟨S384x768, .bf16⟩
  | .hbm, ⟨12, _⟩ => ⟨S1x768, .f32⟩
  | .hbm, ⟨13, _⟩ => ⟨S1x768, .f32⟩
  | .hbm, ⟨14, _⟩ => ⟨S1x384, .f32⟩
  | .hbm, ⟨15, _⟩ => ⟨S1x384, .f32⟩
  | .hbm, ⟨16, _⟩ => ⟨S65536x768, .f32⟩
  | .hbm, ⟨17, _⟩ => ⟨S8x8192x768, .f32⟩
  | .local _ .vmem, ⟨0, _⟩ => ⟨S1024x768, .f32⟩
  | .local _ .vmem, ⟨1, _⟩ => ⟨S1024x768, .f32⟩
  | .local _ .vmem, ⟨2, _⟩ => ⟨S768x384, .bf16⟩
  | .local _ .vmem, ⟨3, _⟩ => ⟨S384x768, .bf16⟩
  | .local _ .vmem, ⟨4, _⟩ => ⟨S1x768, .f32⟩
  | .local _ .vmem, ⟨5, _⟩ => ⟨S1x768, .f32⟩
  | .local _ .vmem, ⟨6, _⟩ => ⟨S1x384, .f32⟩
  | .local _ .vmem, ⟨7, _⟩ => ⟨S1x384, .f32⟩
  | .local _ .vmem, ⟨8, _⟩ => ⟨S1024x768, .f32⟩
  | .local _ .vmem, ⟨9, _⟩ => ⟨S1024x768, .f32⟩
  | _, _ => ⟨S8x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x8192x768_S65536x768 : S8x8192x768.ShapeCasts S65536x768
  transposes_S384x768_S768x384_1_0 : S384x768.Transposes [1, 0] S768x384
  bitsLt_bf16_f32 : FTy.bits .bf16 < FTy.bits .f32
  transposes_S768x384_S384x768_1_0 : S768x384.Transposes [1, 0] S384x768
  shapeCasts_S768_S1x768 : S768.ShapeCasts S1x768
  shapeCasts_S384_S1x384 : S384.ShapeCasts S1x384
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  reduces_S1024x768_S1024 : S1024x768.Reduces [1] S1024
  shapeCasts_S1024_S1024x1 : S1024.ShapeCasts S1024x1
  broadcasts_S1024x1_S1024x768 : S1024x1.Broadcasts S1024x768
  broadcasts_S1x768_S1024x768 : S1x768.Broadcasts S1024x768
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  reduces_S1024x384_S1024 : S1024x384.Reduces [1] S1024
  broadcasts_S1024x1_S1024x384 : S1024x1.Broadcasts S1024x384
  broadcasts_S1x384_S1024x384 : S1x384.Broadcasts S1024x384
  inb_S384x768_S384x768_0_0 : ∀ a, (![0, 0] : Fin 2 → Nat) a + S384x768.size a ≤ S384x768.size a
  h_S384x768 : 0 < S384x768.numel
  shapeCasts_S384x768_S384x768 : S384x768.ShapeCasts S384x768
  shapeCasts_S65536x768_S8x8192x768 : S65536x768.ShapeCasts S8x8192x768
  dot_S1024x768_S768x384_S1024x384_1_0_0_1_n_n_wf : DotDims.WF S1024x768 S768x384 S1024x384 [1] [0] [0] [1] [] []
  dot_S1024x384_S384x768_S1024x768_1_0_0_1_n_n_wf : DotDims.WF S1024x384 S384x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S65536x768.size a
  hwx0_0 : ∀ i : grid0.Coords, EltTy.bits .f32 = 32 ∨ (Rect.block (s := S65536x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .bf16 = 32 ∨ (Rect.block (s := S768x384) S768x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x768.size a ≤ S384x768.size a
  hwx0_2 : ∀ i : grid0.Coords, EltTy.bits .bf16 = 32 ∨ (Rect.block (s := S384x768) S384x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x768.size a ≤ S65536x768.size a
  hwx0_7 : ∀ i : grid0.Coords, EltTy.bits .f32 = 32 ∨ (Rect.block (s := S65536x768) S1024x768.size (cc0_transform_7 i) (hinb0_7 i)).WholeWords (EltTy.packing .f32)

variable [Facts₀]

def dot_S1024x768_S768x384_S1024x384_1_0_0_1_n_n : DotDims S1024x768 S768x384 S1024x384 where
  lhsContracting := [1]
  rhsContracting := [0]
  lhsNonContracting := [0]
  rhsNonContracting := [1]
  lhsBatch := []
  rhsBatch := []
  wf := dot_S1024x768_S768x384_S1024x384_1_0_0_1_n_n_wf
def dot_S1024x384_S384x768_S1024x768_1_0_0_1_n_n : DotDims S1024x384 S384x768 S1024x768 where
  lhsContracting := [1]
  rhsContracting := [0]
  lhsNonContracting := [0]
  rhsNonContracting := [1]
  lhsBatch := []
  rhsBatch := []
  wf := dot_S1024x384_S384x768_S1024x768_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S384x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1024x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x8192x768 : Shape := ⟨3, ![8, 8192, 768]⟩
abbrev S384x768 : Shape := ⟨2, ![384, 768]⟩
abbrev S768x384 : Shape := ⟨2, ![768, 384]⟩
abbrev S768 : Shape := ⟨1, ![768]⟩
abbrev S384 : Shape := ⟨1, ![384]⟩
abbrev S_ : Shape := ⟨0, ![]⟩
abbrev S8x8192 : Shape := ⟨2, ![8, 8192]⟩
abbrev S8x8192x1 : Shape := ⟨3, ![8, 8192, 1]⟩
abbrev S1x1x768 : Shape := ⟨3, ![1, 1, 768]⟩
abbrev S8x8192x384 : Shape := ⟨3, ![8, 8192, 384]⟩
abbrev S1x1x384 : Shape := ⟨3, ![1, 1, 384]⟩

abbrev nBuf : Space → Nat
  | .hbm => 86
  | .vmem => 0
  | .smem => 0
  | _ => 0

abbrev bufTy : (tb : Table) → Fin (tcTables nBuf tb) → BufTy
  | .hbm, ⟨0, _⟩ => ⟨S8x8192x768, .f32⟩
  | .hbm, ⟨1, _⟩ => ⟨S384x768, .f32⟩
  | .hbm, ⟨2, _⟩ => ⟨S768x384, .f32⟩
  | .hbm, ⟨3, _⟩ => ⟨S768, .f32⟩
  | .hbm, ⟨4, _⟩ => ⟨S768, .f32⟩
  | .hbm, ⟨5, _⟩ => ⟨S384, .f32⟩
  | .hbm, ⟨6, _⟩ => ⟨S384, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x768, .f32⟩
  | .hbm, ⟨14, _⟩ => ⟨S8x8192x768, .f32⟩
  | .hbm, ⟨15, _⟩ => ⟨S8x8192x768, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S8x8192x768, .f32⟩
  | .hbm, ⟨23, _⟩ => ⟨S8x8192x768, .f32⟩
  | .hbm, ⟨24, _⟩ => ⟨S_, .f32⟩
  | .hbm, ⟨25, _⟩ => ⟨S8x8192x1, .f32⟩
  | .hbm, ⟨26, _⟩ => ⟨S8x8192x1, .f32⟩
  | .hbm, ⟨27, _⟩ => ⟨S8x8192x1, .f32⟩
  | .hbm, ⟨28, _⟩ => ⟨S8x8192x768, .f32⟩
  | .hbm, ⟨29, _⟩ => ⟨S8x8192x768, .f32⟩
  | .hbm, ⟨30, _⟩ => ⟨S1x1x768, .f32⟩
  | .hbm, ⟨31, _⟩ => ⟨S8x8192x768, .f32⟩
  | .hbm, ⟨32, _⟩ => ⟨S8x8192x768, .f32⟩
  | .hbm, ⟨33, _⟩ => ⟨S1x1x768, .f32⟩
  | .hbm, ⟨34, _⟩ => ⟨S8x8192x768, .f32⟩
  | .hbm, ⟨35, _⟩ => ⟨S8x8192x768, .f32⟩
  | .hbm, ⟨36, _⟩ => ⟨S8x8192x384, .f32⟩
  | .hbm, ⟨37, _⟩ => ⟨S8x8192x384, .f32⟩
  | .hbm, ⟨38, _⟩ => ⟨S8x8192x384, .f32⟩
  | .hbm, ⟨39, _⟩ => ⟨S_, .f32⟩
  | .hbm, ⟨40, _⟩ => ⟨S8x8192x384, .f32⟩
  | .hbm, ⟨41, _⟩ => ⟨S8x8192x384, .f32⟩
  | .hbm, ⟨42, _⟩ => ⟨S_, .f32⟩
  | .hbm, ⟨43, _⟩ => ⟨S8x8192x384, .f32⟩
  | .hbm, ⟨44, _⟩ => ⟨S8x8192x384, .f32⟩
  | .hbm, ⟨45, _⟩ => ⟨S8x8192x384, .f32⟩
  | .hbm, ⟨46, _⟩ => ⟨S_, .f32⟩
  | .hbm, ⟨47, _⟩ => ⟨S8x8192, .f32⟩
  | .hbm, ⟨48, _⟩ => ⟨S8x8192x1, .f32⟩
  | .hbm, ⟨49, _⟩ => ⟨S_, .f32⟩
  | .hbm, ⟨50, _⟩ => ⟨S8x8192x1, .f32⟩
  | .hbm, ⟨51, _⟩ => ⟨S8x8192x1, .f32⟩
  | .hbm, ⟨52, _⟩ => ⟨S8x8192x384, .f32⟩
  | .hbm, ⟨53, _⟩ => ⟨S8x8192x384, .f32⟩
  | .hbm, ⟨54, _⟩ => ⟨S8x8192x384, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x384, .f32⟩
  | .hbm, ⟨62, _⟩ => ⟨S8x8192x384, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x8192x1, .f32⟩
  | .hbm, ⟨67, _⟩ => ⟨S8x8192x384, .f32⟩
  | .hbm, ⟨68, _⟩ => ⟨S8x8192x384, .f32⟩
  | .hbm, ⟨69, _⟩ => ⟨S1x1x384, .f32⟩
  | .hbm, ⟨70, _⟩ => ⟨S8x8192x384, .f32⟩
  | .hbm, ⟨71, _⟩ => ⟨S8x8192x384, .f32⟩
  | .hbm, ⟨72, _⟩ => ⟨S1x1x384, .f32⟩
  | .hbm, ⟨73, _⟩ => ⟨S8x8192x384, .f32⟩
  | .hbm, ⟨74, _⟩ => ⟨S8x8192x384, .f32⟩
  | .hbm, ⟨75, _⟩ => ⟨S8x8192x768, .f32⟩
  | .hbm, ⟨76, _⟩ => ⟨S8x8192x768, .f32⟩
  | .hbm, ⟨77, _⟩ => ⟨S8x8192x768, .f32⟩
  | .hbm, ⟨78, _⟩ => ⟨S_, .f32⟩
  | .hbm, ⟨79, _⟩ => ⟨S8x8192x768, .f32⟩
  | .hbm, ⟨80, _⟩ => ⟨S8x8192x768, .f32⟩
  | .hbm, ⟨81, _⟩ => ⟨S_, .f32⟩
  | .hbm, ⟨82, _⟩ => ⟨S8x8192x768, .f32⟩
  | .hbm, ⟨83, _⟩ => ⟨S8x8192x768, .f32⟩
  | .hbm, ⟨84, _⟩ => ⟨S8x8192x768, .f32⟩
  | .hbm, ⟨85, _⟩ => ⟨S8x8192x768, .f32⟩
  | _, _ => ⟨S8x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]

class Facts₀ : Prop where
  reducesTo_S8x8192x768_S8x8192_d2 : S8x8192x768.ReducesTo [2] S8x8192
  h_S_ : 0 < S_.numel
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x768_0_1_2 : S8x8192x1.BroadcastsInDim S8x8192x768 (![0, 1, 2] : Fin 3 → Fin S8x8192x768.rank)
  bcast_S768_S1x1x768_2 : S768.BroadcastsInDim S1x1x768 (![2] : Fin 1 → Fin S1x1x768.rank)
  bcast_S1x1x768_S8x8192x768_0_1_2 : S1x1x768.BroadcastsInDim S8x8192x768 (![0, 1, 2] : Fin 3 → Fin S8x8192x768.rank)
  bcast_S_S8x8192x384 : S_.BroadcastsInDim S8x8192x384 (![] : Fin 0 → Fin S8x8192x384.rank)
  reducesTo_S8x8192x384_S8x8192_d2 : S8x8192x384.ReducesTo [2] S8x8192
  bcast_S8x8192x1_S8x8192x384_0_1_2 : S8x8192x1.BroadcastsInDim S8x8192x384 (![0, 1, 2] : Fin 3 → Fin S8x8192x384.rank)
  bcast_S384_S1x1x384_2 : S384.BroadcastsInDim S1x1x384 (![2] : Fin 1 → Fin S1x1x384.rank)
  bcast_S1x1x384_S8x8192x384_0_1_2 : S1x1x384.BroadcastsInDim S8x8192x384 (![0, 1, 2] : Fin 3 → Fin S8x8192x384.rank)
  bcast_S_S8x8192x768 : S_.BroadcastsInDim S8x8192x768 (![] : Fin 0 → Fin S8x8192x768.rank)
  dot_S8x8192x768_S384x768_S8x8192x384_2_1_01_0_n_n_wf : DotDims.WF S8x8192x768 S384x768 S8x8192x384 [2] [1] [0, 1] [0] [] []
  dot_S8x8192x384_S768x384_S8x8192x768_2_1_01_0_n_n_wf : DotDims.WF S8x8192x384 S768x384 S8x8192x768 [2] [1] [0, 1] [0] [] []

variable [Facts₀]

def dot_S8x8192x768_S384x768_S8x8192x384_2_1_01_0_n_n : DotDims S8x8192x768 S384x768 S8x8192x384 where
  lhsContracting := [2]
  rhsContracting := [1]
  lhsNonContracting := [0, 1]
  rhsNonContracting := [0]
  lhsBatch := []
  rhsBatch := []
  wf := dot_S8x8192x768_S384x768_S8x8192x384_2_1_01_0_n_n_wf
def dot_S8x8192x384_S768x384_S8x8192x768_2_1_01_0_n_n : DotDims S8x8192x384 S768x384 S8x8192x768 where
  lhsContracting := [2]
  rhsContracting := [1]
  lhsNonContracting := [0, 1]
  rhsNonContracting := [0]
  lhsBatch := []
  rhsBatch := []
  wf := dot_S8x8192x384_S768x384_S8x8192x768_2_1_01_0_n_n_wf

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.RowSpec.lean ====
/-
  The mathematics of one row, on the extended reals.

  A row `v` of length `n` is normalised as
    `LN v j = (v j - μ) · rsqrt (σ² + ε) · γ j + β j`,   `μ = (Σ v) / c`,   `σ² = (Σ (v - μ)²) / c`,
  with the count `c` and `ε` whatever the two programs' shared literals denote.  A row `x` of the input
  (length 768) is sent to
    `h j = Σ k, LN₁ x k · W₁ j k`            (length 384),   `s = swish h`,
    `o d = Σ k, LN₂ s k · W₂ d k`            (length 768),   `out d = swish (o d) + x d`,
  where `swish z = z · logistic z`.  Both programs compute exactly this function of a row; they differ only in
  how the rows are laid out and in the order of the sums, which the extended reals do not see.
-/
import Idealize.ShloMosaic.PureOps.Ideal

noncomputable section

namespace Cert.RowSpec

open Idealize.ShloMosaic

/-- A row's mean: its sum over the count. -/
def mean {n : ℕ} (cnt : EReal) (v : Fin n → EReal) : EReal := Ideal.div (∑ k, v k) cnt

/-- A row's entry less the row's mean. -/
def centered {n : ℕ} (cnt : EReal) (v : Fin n → EReal) (j : Fin n) : EReal := v j - mean cnt v

/-- A row's variance: the sum of the squared centered entries over the count. -/
def variance {n : ℕ} (cnt : EReal) (v : Fin n → EReal) : EReal :=
  Ideal.div (∑ k, centered cnt v k * centered cnt v k) cnt

/-- Layer normalisation of a row with scale `g` and shift `b`. -/
def layerNorm {n : ℕ} (cnt eps : EReal) (g b v : Fin n → EReal) (j : Fin n) : EReal :=
  centered cnt v j * Ideal.rsqrt (variance cnt v + eps) * g j + b j

/-- `swish z = z · logistic z`. -/
def swish (z : EReal) : EReal := z * Ideal.logistic z

/-- The first block of a row: normalise, project by `W₁`, swish. -/
def hidden {n h : ℕ} (c1 eps : EReal) (g1 b1 : Fin n → EReal) (W1 : Fin h → Fin n → EReal) (x : Fin n → EReal) (j : Fin h) : EReal :=
  swish (∑ k, layerNorm c1 eps g1 b1 x k * W1 j k)

/-- The whole function of a row: two blocks and the residual. -/
def rowOut {n h : ℕ} (c1 c2 eps : EReal) (g1 b1 : Fin n → EReal) (g2 b2 : Fin h → EReal)
    (W1 : Fin h → Fin n → EReal) (W2 : Fin n → Fin h → EReal) (x : Fin n → EReal) (d : Fin n) : EReal :=
  swish (∑ k, layerNorm c2 eps g2 b2 (hidden c1 eps g1 b1 W1 x) k * W2 d k) + x d

end Cert.RowSpec

end
-- ==== Proof.RowKernel.lean ====
/-
  The kernel's vector operations on a block, read entry by entry.

  On an `[a, b]` block the kernel normalises every row (lane sums kept as columns, spread back over the lanes; the
  one-row scale and shift spread over the rows), and projects a normalised block by a `[K, N]` weight block into a zero
  accumulator, then multiplies by the logistic.  Read at entry `(p, k)`, each is the row function of `RowSpec` applied to
  row `p`: narrowing to bf16 changes nothing on the extended reals, and a matrix product into zero is the plain sum.
-/
import Idealize.ShloMosaic.PureOps.Ideal.Laws
import Idealize.ShloMosaic.Lib.ValueIdx
import Idealize.ShloMosaic.Lib.ValueLayout
import Idealize.ShloMosaic.Lib.Pipeline.Value
import proofs.«111590_j6803228196916_1_alg».proof.Proof.LibRowOps
import proofs.«111590_j6803228196916_1_alg».proof.Proof.RowSpec

noncomputable section

namespace Cert.RowKernel

open Idealize.ShloMosaic Idealize.ShloMosaic.ValueIdx Cert.RowOps Cert.RowSpec

/-- The row-wise normalisation as the kernel writes it on an `[a, b]` block: lane sums kept as `[a, 1]` columns and
    spread back, the one-row scale and shift spread over the rows. -/
def lnVec {a b : ℕ} (cnt eps : BitVec 32) (hφ : FKind.Formats FTy.f32)
    (hacc : (0x00000000#32 : BitVec FTy.f32.bits) = FKind.add.neutral FTy.f32 hφ)
    (hr : (⟨2, ![a, b]⟩ : Shape).Reduces [1] ⟨1, ![a]⟩) (hs : (⟨1, ![a]⟩ : Shape).ShapeCasts ⟨2, ![a, 1]⟩)
    (hb : (⟨2, ![a, 1]⟩ : Shape).Broadcasts ⟨2, ![a, b]⟩) (hg : (⟨2, ![1, b]⟩ : Shape).ShapeCasts ⟨2, ![1, b]⟩)
    (hgb : (⟨2, ![1, b]⟩ : Shape).Broadcasts ⟨2, ![a, b]⟩)
    (src : FVec Ideal ⟨2, ![a, b]⟩ .f32) (g bb : FVec Ideal ⟨2, ![1, b]⟩ .f32) : FVec Ideal ⟨2, ![a, b]⟩ .f32 :=
  let mu : FVec Ideal ⟨2, ![a, 1]⟩ .f32 :=
    divf (shapeCast ⟨2, ![a, 1]⟩ (multiReduction .add [1] ⟨1, ![a]⟩ src 0x00000000#32 hr hφ hacc) hs)
      (broadcast ⟨2, ![a, 1]⟩ (Scalar.ofBits .f32 cnt))
  let xc : FVec Ideal ⟨2, ![a, b]⟩ .f32 := subf src (broadcastTo ⟨2, ![a, b]⟩ mu hb)
  let var : FVec Ideal ⟨2, ![a, 1]⟩ .f32 :=
    divf (shapeCast ⟨2, ![a, 1]⟩ (multiReduction .add [1] ⟨1, ![a]⟩ (mulf xc xc) 0x00000000#32 hr hφ hacc) hs)
      (broadcast ⟨2, ![a, 1]⟩ (Scalar.ofBits .f32 cnt))
  let rs : FVec Ideal ⟨2, ![a, 1]⟩ .f32 := rsqrt (addf var (broadcast ⟨2, ![a, 1]⟩ (Scalar.ofBits .f32 eps)))
  addf (mulf (mulf xc (broadcastTo ⟨2, ![a, b]⟩ rs hb)) (broadcastTo ⟨2, ![a, b]⟩ (shapeCast ⟨2, ![1, b]⟩ g hg) hgb))
    (broadcastTo ⟨2, ![a, b]⟩ (shapeCast ⟨2, ![1, b]⟩ bb hg) hgb)

/-- Row `p` of a block. -/
abbrev rowOf {a b : ℕ} (v : (⟨2, ![a, b]⟩ : Shape).Idx → EReal) (p : Fin a) : Fin b → EReal := fun k => v (ix2 p k)

/-- Entry `(p, k)` of the normalised block is the layer normalisation of row `p` at `k`. -/
theorem lnVec_apply {a b : ℕ} (cnt eps : BitVec 32) (hφ : FKind.Formats FTy.f32)
    (hacc : (0x00000000#32 : BitVec FTy.f32.bits) = FKind.add.neutral FTy.f32 hφ)
    (hr : (⟨2, ![a, b]⟩ : Shape).Reduces [1] ⟨1, ![a]⟩) (hs : (⟨1, ![a]⟩ : Shape).ShapeCasts ⟨2, ![a, 1]⟩)
    (hb : (⟨2, ![a, 1]⟩ : Shape).Broadcasts ⟨2, ![a, b]⟩) (hg : (⟨2, ![1, b]⟩ : Shape).ShapeCasts ⟨2, ![1, b]⟩)
    (hgb : (⟨2, ![1, b]⟩ : Shape).Broadcasts ⟨2, ![a, b]⟩)
    (src : FVec Ideal ⟨2, ![a, b]⟩ .f32) (g bb : FVec Ideal ⟨2, ![1, b]⟩ .f32) (p : Fin a) (k : Fin b) :
    lnVec cnt eps hφ hacc hr hs hb hg hgb src g bb (ix2 p k)
      = layerNorm (Ideal.ofBits .f32 cnt) (Ideal.ofBits .f32 eps) (rowOf g 0) (rowOf bb 0) (rowOf src p) k := by
  have hmu : ∀ q : Fin a, divf (shapeCast ⟨2, ![a, 1]⟩ (multiReduction .add [1] ⟨1, ![a]⟩ src 0x00000000#32 hr hφ hacc) hs)
      (broadcast ⟨2, ![a, 1]⟩ (Scalar.ofBits (F := Ideal) .f32 cnt)) (ix2 q (0 : Fin 1)) = mean (Ideal.ofBits .f32 cnt) (rowOf src q) := by
    intro q
    rw [divf_apply, shapeCast_a_a1_apply, laneSum_apply]
    rfl
  have hxc : ∀ (q : Fin a) (i : Fin b), subf src (broadcastTo ⟨2, ![a, b]⟩
      (divf (shapeCast ⟨2, ![a, 1]⟩ (multiReduction .add [1] ⟨1, ![a]⟩ src 0x00000000#32 hr hφ hacc) hs)
        (broadcast ⟨2, ![a, 1]⟩ (Scalar.ofBits (F := Ideal) .f32 cnt))) hb) (ix2 q i)
      = centered (Ideal.ofBits .f32 cnt) (rowOf src q) i := by
    intro q i
    rw [subf_apply, broadcastTo_a1_ab_apply, hmu]
    rfl
  unfold lnVec
  dsimp only
  rw [addf_apply, mulf_apply, mulf_apply, hxc, broadcastTo_a1_ab_apply, rowParam_spread_apply, rowParam_spread_apply]
  show _ * Ideal.rsqrt (Ideal.div _ _ + _) * _ + _ = _
  rw [shapeCast_a_a1_apply, laneSum_apply]
  simp only [mulf_apply, hxc]
  rfl

/-- A projection followed by swish, as the kernel writes it: the normalised block narrowed (no change on the extended
    reals), multiplied into a zero accumulator by the `[K, N]` weight block, times its own logistic. -/
def projSwish {M K N : ℕ} (wf : DotDims.WF ⟨2, ![M, K]⟩ ⟨2, ![K, N]⟩ ⟨2, ![M, N]⟩ [1] [0] [0] [1] [] [])
    (hw : (⟨2, ![K, N]⟩ : Shape).ShapeCasts ⟨2, ![K, N]⟩) (hlt : FTy.bf16.bits < FTy.f32.bits)
    (lhs : FVec Ideal ⟨2, ![M, K]⟩ .f32) (w : FVec Ideal ⟨2, ![K, N]⟩ .bf16) : FVec Ideal ⟨2, ![M, N]⟩ .f32 :=
  let h : FVec Ideal ⟨2, ![M, N]⟩ .f32 :=
    matmul (⟨[1], [0], [0], [1], [], [], wf⟩ : DotDims ⟨2, ![M, K]⟩ ⟨2, ![K, N]⟩ ⟨2, ![M, N]⟩) none
      (truncf .bf16 lhs hlt) (shapeCast ⟨2, ![K, N]⟩ w hw) (constant ⟨2, ![M, N]⟩ .f32 0x00000000#32)
  mulf h (logistic h)

/-- Entry `(p, c)`: swish of the sum over `k` of `lhs (p, k) · w (k, c)`. -/
theorem projSwish_apply {M K N : ℕ} (wf : DotDims.WF ⟨2, ![M, K]⟩ ⟨2, ![K, N]⟩ ⟨2, ![M, N]⟩ [1] [0] [0] [1] [] [])
    (hw : (⟨2, ![K, N]⟩ : Shape).ShapeCasts ⟨2, ![K, N]⟩) (hlt : FTy.bf16.bits < FTy.f32.bits)
    (lhs : FVec Ideal ⟨2, ![M, K]⟩ .f32) (w : FVec Ideal ⟨2, ![K, N]⟩ .bf16) (p : Fin M) (c : Fin N) :
    projSwish wf hw hlt lhs w (ix2 p c) = swish (∑ k : Fin K, lhs (ix2 p k) * w (ix2 k c)) := by
  unfold projSwish
  dsimp only
  rw [mulf_apply]
  show _ * Ideal.logistic _ = _
  rw [show matmul (⟨[1], [0], [0], [1], [], [], wf⟩ : DotDims ⟨2, ![M, K]⟩ ⟨2, ![K, N]⟩ ⟨2, ![M, N]⟩) none
      (truncf .bf16 lhs hlt) (shapeCast ⟨2, ![K, N]⟩ w hw) (constant ⟨2, ![M, N]⟩ .f32 0x00000000#32) (ix2 p c)
      = ∑ k : Fin K, lhs (ix2 p k) * w (ix2 k c) from by
    refine (Cert.RowOps.matmul_apply wf none (truncf .bf16 lhs hlt) (shapeCast ⟨2, ![K, N]⟩ w hw) p c).trans ?_
    refine Finset.sum_congr rfl fun k _ => ?_
    rw [truncf_apply, shapeCast_self]]
  rfl

end Cert.RowKernel

end
-- ==== Proof.KernelRow.lean ====
/-
  The kernel body's stored block, entry by entry.

  At a grid point the body loads the point's `[1024, 768]` block of the input, the two weight blocks and the four
  one-row parameters, and stores one `[1024, 768]` block.  Entry `(p, d)` of the stored block is `RowSpec.rowOut` of row
  `p` of the loaded input block: the first half of the body computes the hidden block (each row `RowSpec.hidden` of the
  input row), the second half normalises the hidden block, projects it back, and adds the input block.
-/
import proofs.«111590_j6803228196916_1_alg».proof.Proof.Gen.KernelIdeal.Frame
import proofs.«111590_j6803228196916_1_alg».proof.Proof.RowKernel

noncomputable section

namespace Cert.KernelRow

open Idealize.ShloMosaic Idealize.ShloMosaic.ValueIdx Cert.KernelIdeal Cert.KernelIdeal.Gen Cert.RowSpec Cert.RowKernel

variable (x0 : Vec Ideal S1024x768 .f32) (w1 : Vec Ideal S768x384 .bf16) (w2 : Vec Ideal S384x768 .bf16)
  (g1 b1 : Vec Ideal S1x768 .f32) (g2 b2 : Vec Ideal S1x384 .f32)

/-- f32 is a format the lane sum adds in, and the literal zero is the sum's neutral element. -/
theorem hφ32 : FKind.Formats FTy.f32 := .inl rfl
theorem hacc32 : (0x00000000#32 : BitVec FTy.f32.bits) = FKind.add.neutral FTy.f32 hφ32 := rfl

/-- The loaded input block, cast to its own shape, is itself. -/
theorem pay2_eq : k0_pay2 x0 = x0 := by
  unfold k0_pay2
  exact shapeCast_self _ _

/-- The first half of the body: the hidden block is the projection-and-swish of the normalised input block. -/
theorem pay3_eq : k0_pay3 x0 g1 b1 w1
    = projSwish Cert.KernelIdeal.Gen.dot_S1024x768_S768x384_S1024x384_1_0_0_1_n_n_wf Cert.KernelIdeal.Gen.shapeCasts_S768x384_S768x384
        Cert.KernelIdeal.Gen.bitsLt_bf16_f32
        (lnVec 0x44400000#32 0x3727C5AC#32 hφ32 hacc32 Cert.KernelIdeal.Gen.reduces_S1024x768_S1024 Cert.KernelIdeal.Gen.shapeCasts_S1024_S1024x1
          Cert.KernelIdeal.Gen.broadcasts_S1024x1_S1024x768 Cert.KernelIdeal.Gen.shapeCasts_S1x768_S1x768 Cert.KernelIdeal.Gen.broadcasts_S1x768_S1024x768
          (k0_pay2 x0) g1 b1) w1 := rfl

/-- Entry `(p, j)` of the hidden block: the hidden row of input row `p` at `j`. -/
theorem pay3_apply (p : Fin 1024) (j : Fin 384) :
    k0_pay3 x0 g1 b1 w1 (ix2 p j)
      = RowSpec.hidden (Ideal.ofBits .f32 0x44400000#32) (Ideal.ofBits .f32 0x3727C5AC#32) (rowOf g1 0) (rowOf b1 0)
          (fun j k => w1 (ix2 k j)) (rowOf x0 p) j := by
  rw [pay3_eq, projSwish_apply]
  unfold RowSpec.hidden
  refine congrArg swish (Finset.sum_congr rfl fun k _ => ?_)
  rw [lnVec_apply, pay2_eq]

/-- The second half of the body, on the first half's values: the hidden block normalised, projected back and
    swished, plus the input block. -/
theorem pay1_eq : k0_pay1 (k0_pay2 x0) (k0_pay3 x0 g1 b1 w1) (k0_pay4 g2) (k0_pay5 b2) (k0_pay6 x0 g1 b1 w1) (k0_pay7 (F := Ideal)) w2
    = addf (projSwish Cert.KernelIdeal.Gen.dot_S1024x384_S384x768_S1024x768_1_0_0_1_n_n_wf Cert.KernelIdeal.Gen.shapeCasts_S384x768_S384x768
        Cert.KernelIdeal.Gen.bitsLt_bf16_f32
        (lnVec 0x43C00000#32 0x3727C5AC#32 hφ32 hacc32 Cert.KernelIdeal.Gen.reduces_S1024x384_S1024 Cert.KernelIdeal.Gen.shapeCasts_S1024_S1024x1
          Cert.KernelIdeal.Gen.broadcasts_S1024x1_S1024x384 Cert.KernelIdeal.Gen.shapeCasts_S1x384_S1x384 Cert.KernelIdeal.Gen.broadcasts_S1x384_S1024x384
          (k0_pay3 x0 g1 b1 w1) g2 b2) w2) (k0_pay2 x0) := rfl

theorem hz : (![0, 0] : Fin 2 → Nat) = fun _ => 0 := funext fun a => by fin_cases a <;> rfl

/-- Entry `(p, d)` of the stored block is the row function of row `p` of the input block, at `d`. -/
theorem out_apply (p : Fin 1024) (d : Fin 768) :
    out0_7 x0 w1 w2 g1 b1 g2 b2 (ix2 p d)
      = rowOut (Ideal.ofBits .f32 0x44400000#32) (Ideal.ofBits .f32 0x43C00000#32) (Ideal.ofBits .f32 0x3727C5AC#32)
          (rowOf g1 0) (rowOf b1 0) (rowOf g2 0) (rowOf b2 0) (fun j k => w1 (ix2 k j)) (fun d k => w2 (ix2 k d)) (rowOf x0 p) d := by
  unfold out0_7
  rw [View.canon_unit_zero hz]
  simp only [View.ld_unit_zero (S := S1024x768) hz, View.ld_unit_zero (S := S768x384) hz, View.ld_unit_zero (S := S384x768) hz,
    View.ld_unit_zero (S := S1x768) hz, View.ld_unit_zero (S := S1x384) hz]
  rw [pay1_eq, addf_apply, projSwish_apply, pay2_eq]
  unfold rowOut
  refine congrArg (swish · + _) (Finset.sum_congr rfl fun k _ => ?_)
  rw [lnVec_apply]
  refine congrArg (layerNorm _ _ _ _ · k * _) (funext fun j => ?_)
  exact pay3_apply x0 w1 g1 b1 p j

end Cert.KernelRow

end
-- ==== Proof.ResultSpec.lean ====
/-
  The result both programs compute, as one function of the seven arguments: entry `(b, s, d)` of the
  `[8, 8192, 768]` result is `RowSpec.rowOut` of the row `x (b, s, ·)`, read at `d`, with the weights `W₁ : [384, 768]`,
  `W₂ : [768, 384]` contracted along their second axis and the four normalisation parameters as rows.
-/
import Idealize.ShloMosaic.Lib.ValueIdx
import proofs.«111590_j6803228196916_1_alg».proof.Proof.RowSpec

noncomputable section

namespace Cert.ResultSpec

open Idealize.ShloMosaic Idealize.ShloMosaic.ValueIdx Cert.RowSpec

/-- The result array of the two-block residual network. -/
def result (x : (⟨3, ![8, 8192, 768]⟩ : Shape).Idx → EReal) (W1 : (⟨2, ![384, 768]⟩ : Shape).Idx → EReal)
    (W2 : (⟨2, ![768, 384]⟩ : Shape).Idx → EReal) (g1 b1 : (⟨1, ![768]⟩ : Shape).Idx → EReal)
    (g2 b2 : (⟨1, ![384]⟩ : Shape).Idx → EReal) : (⟨3, ![8, 8192, 768]⟩ : Shape).Idx → EReal :=
  fun i => rowOut (Ideal.ofBits .f32 0x44400000#32) (Ideal.ofBits .f32 0x43C00000#32) (Ideal.ofBits .f32 0x3727C5AC#32)
    (fun k => g1 (ix1 k)) (fun k => b1 (ix1 k)) (fun k => g2 (ix1 k)) (fun k => b2 (ix1 k))
    (fun j k => W1 (ix2 j k)) (fun d k => W2 (ix2 d k)) (fun k => x (ix3 (i 0) (i 1) k)) (i 2)

end Cert.ResultSpec

end
-- ==== Proof.KernelArray.lean ====
/-
  From the stored blocks to the kernel's result array.

  Grid point `t` reads rows `1024 t … 1024 t + 1023` of the `[65536, 768]` input (the other six windows are whole
  arrays, the same at every point) and writes the same rows of the output.  The 64 blocks tile the output, so the
  output array is, row by row, `RowSpec.rowOut` of the same row of the input array.
-/
import proofs.«111590_j6803228196916_1_alg».proof.Proof.Gen.KernelIdeal.Frame
import proofs.«111590_j6803228196916_1_alg».proof.Proof.KernelRow
import Idealize.ShloMosaic.Lib.Pipeline.Value
import Idealize.ShloMosaic.Lib.StableHlo.Run
import Idealize.ShloMosaic.Lib.ValueLayout
import proofs.«111590_j6803228196916_1_alg».proof.Proof.ResultSpec

noncomputable section

namespace Cert.KernelArray

open Idealize.ShloMosaic Idealize.ShloMosaic.TcCoe Idealize.SL.Sem Idealize.ShloMosaic.ValueIdx
open Cert.KernelIdeal Cert.KernelIdeal.Gen Cert.RowSpec Cert.RowKernel Cert.KernelRow
open Idealize.ShloMosaic.Pipeline (Dat)

variable (m : (ℓ : Loc nD τ sig) → Buf (Elt Ideal) ℓ) (ρ : Dev nD → PrngReg)

/-- The output array as a function of the seven arrays the region stages: row `i 0` of the input through the row
    function, read at column `i 1`. -/
def outArr (v0 : S65536x768.Idx → Elt Ideal .f32) (w1 : S768x384.Idx → Elt Ideal .bf16) (w2 : S384x768.Idx → Elt Ideal .bf16)
    (g1 b1 : S1x768.Idx → Elt Ideal .f32) (g2 b2 : S1x384.Idx → Elt Ideal .f32) : S65536x768.Idx → Elt Ideal .f32 :=
  fun i => rowOut (Ideal.ofBits .f32 0x44400000#32) (Ideal.ofBits .f32 0x43C00000#32) (Ideal.ofBits .f32 0x3727C5AC#32)
    (rowOf g1 0) (rowOf b1 0) (rowOf g2 0) (rowOf b2 0) (fun j k => w1 (ix2 k j)) (fun d k => w2 (ix2 k d)) (rowOf v0 (i 0)) (i 1)

/-- The arrays as the region finds them, and the blocks the body loads at a point, at their literal types. -/
abbrev arr0 (c : Dev nD) : S65536x768.Idx → Elt Ideal .f32 := V m c main_v0
abbrev arr1 (c : Dev nD) : S768x384.Idx → Elt Ideal .bf16 := V m c main_v2
abbrev arr2 (c : Dev nD) : S384x768.Idx → Elt Ideal .bf16 := V m c main_v4
abbrev arr3 (c : Dev nD) : S1x768.Idx → Elt Ideal .f32 := V m c main_v5
abbrev arr4 (c : Dev nD) : S1x768.Idx → Elt Ideal .f32 := V m c main_v6
abbrev arr5 (c : Dev nD) : S1x384.Idx → Elt Ideal .f32 := V m c main_v7
abbrev arr6 (c : Dev nD) : S1x384.Idx → Elt Ideal .f32 := V m c main_v8
abbrev blk0 (c : Dev nD) (t : Fin cfg0.N) : Vec Ideal S1024x768 .f32 := iblk m c 0 t
abbrev blk1 (c : Dev nD) (t : Fin cfg0.N) : Vec Ideal S768x384 .bf16 := iblk m c 1 t
abbrev blk2 (c : Dev nD) (t : Fin cfg0.N) : Vec Ideal S384x768 .bf16 := iblk m c 2 t
abbrev blk3 (c : Dev nD) (t : Fin cfg0.N) : Vec Ideal S1x768 .f32 := iblk m c 3 t
abbrev blk4 (c : Dev nD) (t : Fin cfg0.N) : Vec Ideal S1x768 .f32 := iblk m c 4 t
abbrev blk5 (c : Dev nD) (t : Fin cfg0.N) : Vec Ideal S1x384 .f32 := iblk m c 5 t
abbrev blk6 (c : Dev nD) (t : Fin cfg0.N) : Vec Ideal S1x384 .f32 := iblk m c 6 t

/-- The printed index maps, decided over the grid: the input's block moves with the output's along the rows, every
    other block index is zero, and the output's row-block index stays below 64. -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 63 ∧ win0_7.index t (1 : Fin 2) = 0 :=
  (by decide +kernel : ∀ t : Fin grid0.N, _)

/-- Every row block of the output is some point's. -/
theorem idx_onto : ∀ q0 : Fin 64, ∃ t : Fin cfg0.N, win0_7.index t = ![q0.val, 0] :=
  (by decide +kernel : ∀ q0 : Fin 64, ∃ t : Fin grid0.N, win0_7.index t = ![q0.val, 0])

/-- A window whose block is the whole array, at block index zero, loads the array itself. -/
theorem blk1_eq (c : Dev nD) (t : Fin cfg0.N) : blk1 m c t = arr1 m c := by
  funext y
  show V m c main_v2 (((cfg0.win 1).blk t).view.emb y) = V m c main_v2 y
  refine congrArg _ (funext fun a => Fin.ext ?_)
  obtain ⟨-, -, e0, e1, -⟩ := idx_facts t
  match a with
  | ⟨0, _⟩ => show win0_1.index t (0 : Fin 2) * 768 + 1 * (y 0).val = (y 0).val; omega
  | ⟨1, _⟩ => show win0_1.index t (1 : Fin 2) * 384 + 1 * (y 1).val = (y 1).val; omega
theorem blk2_eq (c : Dev nD) (t : Fin cfg0.N) : blk2 m c t = arr2 m c := by
  funext y
  show V m c main_v4 (((cfg0.win 2).blk t).view.emb y) = V m c main_v4 y
  refine congrArg _ (funext fun a => Fin.ext ?_)
  obtain ⟨-, -, -, -, e0, e1, -⟩ := idx_facts t
  match a with
  | ⟨0, _⟩ => show win0_2.index t (0 : Fin 2) * 384 + 1 * (y 0).val = (y 0).val; omega
  | ⟨1, _⟩ => show win0_2.index t (1 : Fin 2) * 768 + 1 * (y 1).val = (y 1).val; omega
theorem blk3_eq (c : Dev nD) (t : Fin cfg0.N) : blk3 m c t = arr3 m c := by
  funext y
  show V m c main_v5 (((cfg0.win 3).blk t).view.emb y) = V m c main_v5 y
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 768 + 1 * (y 1).val = (y 1).val; omega
theorem blk4_eq (c : Dev nD) (t : Fin cfg0.N) : blk4 m c t = arr4 m c := by
  funext y
  show V m c main_v6 (((cfg0.win 4).blk t).view.emb y) = V m c main_v6 y
  refine congrArg _ (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 768 + 1 * (y 1).val = (y 1).val; omega
theorem blk5_eq (c : Dev nD) (t : Fin cfg0.N) : blk5 m c t = arr5 m c := by
  funext y
  show V m c main_v7 (((cfg0.win 5).blk t).view.emb y) = V m c main_v7 y
  refine congrArg _ (funext fun a => Fin.ext ?_)
  obtain ⟨-, -, -, -, -, -, -, -, -, -, e0, e1, -⟩ := idx_facts t
  match a with
  | ⟨0, _⟩ => show win0_5.index t (0 : Fin 2) * 1 + 1 * (y 0).val = (y 0).val; omega
  | ⟨1, _⟩ => show win0_5.index t (1 : Fin 2) * 384 + 1 * (y 1).val = (y 1).val; omega
theorem blk6_eq (c : Dev nD) (t : Fin cfg0.N) : blk6 m c t = arr6 m c := by
  funext y
  show V m c main_v8 (((cfg0.win 6).blk t).view.emb y) = V m c main_v8 y
  refine congrArg _ (funext fun a => Fin.ext ?_)
  obtain ⟨-, -, -, -, -, -, -, -, -, -, -, -, e0, e1, -⟩ := idx_facts t
  match a with
  | ⟨0, _⟩ => show win0_6.index t (0 : Fin 2) * 1 + 1 * (y 0).val = (y 0).val; omega
  | ⟨1, _⟩ => show win0_6.index t (1 : Fin 2) * 384 + 1 * (y 1).val = (y 1).val; omega

/-- Row `p` of the input block at point `t` is the input array's row at the output block's row `p`. -/
theorem blk0_row (c : Dev nD) (t : Fin cfg0.N) (p : Fin 1024) (d : Fin 768) :
    rowOf (blk0 m c t) p = rowOf (arr0 m c) ((((cfg0.win 7).blk t).view.emb (ix2 p d)) 0) := by
  funext k
  show V m c main_v0 (((cfg0.win 0).blk t).view.emb (ix2 p k)) = V m c main_v0 (ix2 ((((cfg0.win 7).blk t).view.emb (ix2 p d)) 0) k)
  refine congrArg _ (funext fun a => Fin.ext ?_)
  obtain ⟨e0, e1, -⟩ := idx_facts t
  match a with
  | ⟨0, _⟩ => show win0_0.index t (0 : Fin 2) * 1024 + 1 * p.val = win0_7.index t (0 : Fin 2) * 1024 + 1 * p.val; omega
  | ⟨1, _⟩ => show win0_0.index t (1 : Fin 2) * 768 + 1 * k.val = k.val; omega

/-- WHAT POINT `t` WRITES BACK is block `t` of `outArr` of the arrays as the region finds them. -/
theorem flushed_eq (c : Dev nD) (t : Fin cfg0.N) :
    (dats m 0 c).flushed 7 t
      = ((cfg0.win 7).blk t).view.read (Elt Ideal) (outArr (arr0 m c) (arr1 m c) (arr2 m c) (arr3 m c) (arr4 m c) (arr5 m c) (arr6 m c)) := by
  show (cfg0.win 7).cut (grid0.coords t) ((dats m 0 c).after 7 t) = _
  rw [after0_7]
  funext y
  obtain ⟨p, d, rfl⟩ : ∃ (p : Fin 1024) (d : Fin 768), y = ix2 p d := ⟨y 0, y 1, eq_ix2 y⟩
  show out0_7 (blk0 m c t) (blk1 m c t) (blk2 m c t) (blk3 m c t) (blk4 m c t) (blk5 m c t) (blk6 m c t) (ix2 p d)
    = outArr (arr0 m c) (arr1 m c) (arr2 m c) (arr3 m c) (arr4 m c) (arr5 m c) (arr6 m c) (((cfg0.win 7).blk t).view.emb (ix2 p d))
  rw [out_apply, blk1_eq, blk2_eq, blk3_eq, blk4_eq, blk5_eq, blk6_eq, blk0_row m c t p d]
  unfold outArr
  refine congrArg (rowOut _ _ _ _ _ _ _ _ _ _) (Fin.ext ?_)
  obtain ⟨-, -, -, -, -, -, -, -, -, -, -, -, -, -, -, e1⟩ := idx_facts t
  show d.val = win0_7.index t (1 : Fin 2) * 768 + 1 * d.val
  omega

/-- An index of the output array is in point `t`'s block iff each coordinate is in the block's range on its axis. -/
theorem mem_blk (t : Fin cfg0.N) (i : S65536x768.Idx) :
    i ∈ ((cfg0.win 7).blk t).view.set ↔ ∀ a : Fin 2, win0_7.index t a * S1024x768.size a ≤ (i a).val ∧ (i a).val < win0_7.index t a * S1024x768.size a + S1024x768.size a := by
  show i ∈ ((View.whole main_v9).slice (win0_7.rect t)).set ↔ _
  rw [View.set_slice_whole, Rect.mem_set_unit]
  exact Iff.rfl

/-- Row `r` of the output lies in the block of the point whose row-block index is `r / 1024`. -/
theorem cover (i : S65536x768.Idx) : ∃ t : Fin cfg0.N, (cfg0.win 7).flush t = true ∧ i ∈ ((cfg0.win 7).blk t).view.set := by
  have hi0 : (i 0).val < 65536 := (i 0).isLt
  have hi1 : (i 1).val < 768 := (i 1).isLt
  obtain ⟨t, ht⟩ := idx_onto ⟨(i 0).val / 1024, by omega⟩
  have q0 : win0_7.index t (0 : Fin 2) = (i 0).val / 1024 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 768 ≤ (i 1).val ∧ (i 1).val < win0_7.index t (1 : Fin 2) * 768 + 768; omega

/-- THE OUTPUT ARRAY after the region: `outArr` of the arrays the region found. -/
theorem final (c : Dev nD) : (dats m 0 c).arrAt 7 cfg0.N
    = outArr (arr0 m c) (arr1 m c) (arr2 m c) (arr3 m c) (arr4 m c) (arr5 m c) (arr6 m c) :=
  (dats m 0 c).arrAt_eq_of_cover 7 _ (fun t _ => flushed_eq m c t) cover

/-! ## The host operations before the region: each staged array, of the arguments -/

/-- The input, flattened to `[65536, 768]`. -/
theorem arr0_eq (c : Dev nD) : arr0 m c = shapeCast S65536x768 (m ((c : Thread nD τ).loc main_arg0)) Cert.KernelIdeal.Gen.shapeCasts_S8x8192x768_S65536x768 := by
  show StableHlo.after hostOps0 (fun b => m (c, b)) (Proc.devRef .tc main_v0) = _
  after_results
  rfl

/-- Row `b · 8192 + s` of the flattened input is row `(b, s)` of the input. -/
theorem arr0_apply (c : Dev nD) (b : Fin 8) (s : Fin 8192) (k : Fin 768) (r : Fin 65536) (hr : r.val = b.val * 8192 + s.val) :
    arr0 m c (ix2 r k) = m ((c : Thread nD τ).loc main_arg0) (ix3 b s k) := by
  rw [arr0_eq]
  refine shapeCast_apply _ _ _ _ ?_
  show ((⟨3, ![8, 8192, 768]⟩ : Shape).rowMajor (ix3 b s k)).val = ((⟨2, ![65536, 768]⟩ : Shape).rowMajor (ix2 r k)).val
  rw [Shape.rowMajor_val_three, Shape.rowMajor_val_two]
  show (b.val * 8192 + s.val) * 768 + k.val = r.val * 768 + k.val
  rw [hr]

/-- The first weight, transposed (and narrowed, which changes nothing here). -/
theorem arr1_eq (c : Dev nD) : arr1 m c
    = (truncf (F := Ideal) .bf16 (transpose S768x384 [1, 0] (m ((c : Thread nD τ).loc main_arg1) : S384x768.Idx → Ideal .f32)
        Cert.KernelIdeal.Gen.transposes_S384x768_S768x384_1_0) Cert.KernelIdeal.Gen.bitsLt_bf16_f32 : FVec Ideal S768x384 .bf16) := by
  show StableHlo.after hostOps0 (fun b => m (c, b)) (Proc.devRef .tc main_v2) = _
  after_results

theorem arr1_apply (c : Dev nD) (k : Fin 768) (j : Fin 384) : arr1 m c (ix2 k j) = m ((c : Thread nD τ).loc main_arg1) (ix2 j k) := by
  rw [arr1_eq, truncf_apply, transpose_ix2_apply]

/-- The second weight, transposed. -/
theorem arr2_eq (c : Dev nD) : arr2 m c
    = (truncf (F := Ideal) .bf16 (transpose S384x768 [1, 0] (m ((c : Thread nD τ).loc main_arg2) : S768x384.Idx → Ideal .f32)
        Cert.KernelIdeal.Gen.transposes_S768x384_S384x768_1_0) Cert.KernelIdeal.Gen.bitsLt_bf16_f32 : FVec Ideal S384x768 .bf16) := by
  show StableHlo.after hostOps0 (fun b => m (c, b)) (Proc.devRef .tc main_v4) = _
  after_results

theorem arr2_apply (c : Dev nD) (k : Fin 384) (d : Fin 768) : arr2 m c (ix2 k d) = m ((c : Thread nD τ).loc main_arg2) (ix2 d k) := by
  rw [arr2_eq, truncf_apply, transpose_ix2_apply]

/-- A length-`n` parameter kept as one row `[1, n]`. -/
theorem oneRow_apply {n : ℕ} (g : (⟨1, ![n]⟩ : Shape).Idx → EReal) (h : (⟨1, ![n]⟩ : Shape).ShapeCasts ⟨2, ![1, n]⟩) (k : Fin n) :
    shapeCast ⟨2, ![1, n]⟩ g h (ix2 (0 : Fin 1) k) = g (ix1 k) := by
  refine shapeCast_apply _ _ _ _ ?_
  rw [Shape.rowMajor_val_one, Shape.rowMajor_val_two]
  show k.val = 0 * n + k.val
  omega

theorem arr3_eq (c : Dev nD) : arr3 m c = shapeCast S1x768 (m ((c : Thread nD τ).loc main_arg3)) Cert.KernelIdeal.Gen.shapeCasts_S768_S1x768 := by
  show StableHlo.after hostOps0 (fun b => m (c, b)) (Proc.devRef .tc main_v5) = _
  after_results
  rfl
theorem arr4_eq (c : Dev nD) : arr4 m c = shapeCast S1x768 (m ((c : Thread nD τ).loc main_arg4)) Cert.KernelIdeal.Gen.shapeCasts_S768_S1x768 := by
  show StableHlo.after hostOps0 (fun b => m (c, b)) (Proc.devRef .tc main_v6) = _
  after_results
  rfl
theorem arr5_eq (c : Dev nD) : arr5 m c = shapeCast S1x384 (m ((c : Thread nD τ).loc main_arg5)) Cert.KernelIdeal.Gen.shapeCasts_S384_S1x384 := by
  show StableHlo.after hostOps0 (fun b => m (c, b)) (Proc.devRef .tc main_v7) = _
  after_results
  rfl
theorem arr6_eq (c : Dev nD) : arr6 m c = shapeCast S1x384 (m ((c : Thread nD τ).loc main_arg6)) Cert.KernelIdeal.Gen.shapeCasts_S384_S1x384 := by
  show StableHlo.after hostOps0 (fun b => m (c, b)) (Proc.devRef .tc main_v8) = _
  after_results
  rfl

/-! ## The host operation after the region, and the result -/

/-- The result buffer after the run: the output array, reshaped to `[8, 8192, 768]`. -/
theorem tail_eq (c : Dev nD) : Pipeline.afterTail₀ cfgs (dats m) 0 (V0 m) [hostOps1] c main_v10
    = shapeCast S8x8192x768 ((dats m 0 c).arrAt 7 cfg0.N) Cert.KernelIdeal.Gen.shapeCasts_S65536x768_S8x8192x768 := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v9)
      = (dats m 0 c).arrAt 7 cfg0.N :=
    Pipeline.withArrays_arr (cfgs 0).spec launch0.win.arr_inj c (V0 m c) _ 7
  rw [hw]
  rfl

/-- THE RESULT: the kernel's result buffer after the run is `ResultSpec.result` of the seven arguments. -/
theorem result_eq (c : Dev nD) : Pipeline.afterTail₀ cfgs (dats m) 0 (V0 m) [hostOps1] c main_v10
    = Cert.ResultSpec.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  rw [tail_eq, final]
  funext i
  obtain ⟨b, s, d, rfl⟩ : ∃ (b : Fin 8) (s : Fin 8192) (d : Fin 768), i = ix3 b s d := ⟨i 0, i 1, i 2, eq_ix3 i⟩
  have hr : b.val * 8192 + s.val < 65536 := by have := b.isLt; have := s.isLt; omega
  refine (shapeCast_apply _ _ (ix3 b s d) (ix2 (⟨b.val * 8192 + s.val, hr⟩ : Fin 65536) d) ?_).trans ?_
  · show ((⟨2, ![65536, 768]⟩ : Shape).rowMajor (ix2 (⟨b.val * 8192 + s.val, hr⟩ : Fin 65536) d)).val = ((⟨3, ![8, 8192, 768]⟩ : Shape).rowMajor (ix3 b s d)).val
    rw [Shape.rowMajor_val_three, Shape.rowMajor_val_two]
    rfl
  · unfold outArr Cert.ResultSpec.result
    have e0 : rowOf (arr0 m c) (⟨b.val * 8192 + s.val, hr⟩ : Fin 65536) = fun k => m ((c : Thread nD τ).loc main_arg0) (ix3 b s k) :=
      funext fun k => arr0_apply m c b s k _ rfl
    have e1 : (fun (j : Fin 384) (k : Fin 768) => arr1 m c (ix2 k j)) = fun j k => m ((c : Thread nD τ).loc main_arg1) (ix2 j k) :=
      funext fun j => funext fun k => arr1_apply m c k j
    have e2 : (fun (d : Fin 768) (k : Fin 384) => arr2 m c (ix2 k d)) = fun d k => m ((c : Thread nD τ).loc main_arg2) (ix2 d k) :=
      funext fun d => funext fun k => arr2_apply m c k d
    have e3 : rowOf (arr3 m c) 0 = fun k => m ((c : Thread nD τ).loc main_arg3) (ix1 k) := funext fun k => by
      show arr3 m c (ix2 (0 : Fin 1) k) = _; rw [arr3_eq]; exact oneRow_apply _ _ k
    have e4 : rowOf (arr4 m c) 0 = fun k => m ((c : Thread nD τ).loc main_arg4) (ix1 k) := funext fun k => by
      show arr4 m c (ix2 (0 : Fin 1) k) = _; rw [arr4_eq]; exact oneRow_apply _ _ k
    have e5 : rowOf (arr5 m c) 0 = fun k => m ((c : Thread nD τ).loc main_arg5) (ix1 k) := funext fun k => by
      show arr5 m c (ix2 (0 : Fin 1) k) = _; rw [arr5_eq]; exact oneRow_apply _ _ k
    have e6 : rowOf (arr6 m c) 0 = fun k => m ((c : Thread nD τ).loc main_arg6) (ix1 k) := funext fun k => by
      show arr6 m c (ix2 (0 : Fin 1) k) = _; rw [arr6_eq]; exact oneRow_apply _ _ k
    show rowOut _ _ _ (rowOf (arr3 m c) 0) (rowOf (arr4 m c) 0) (rowOf (arr5 m c) 0) (rowOf (arr6 m c) 0)
      (fun j k => arr1 m c (ix2 k j)) (fun d k => arr2 m c (ix2 k d)) (rowOf (arr0 m c) (⟨b.val * 8192 + s.val, hr⟩ : Fin 65536)) d = _
    rw [e0, e1, e2, e3, e4, e5, e6]

/-! ## The run, read -/

/-- Every weakly fair execution of the kernel's program terminates with its result buffer at `ResultSpec.result` of
    the arguments, the arguments unchanged. -/
theorem run : θ_run defs (onTc (τ := τ) (main (F := Ideal))) ⟨m, fun _ => 0, ρ⟩ fun r => ∀ c : Dev nD,
      r.2.mem ((c.tc : Thread nD τ).loc main_v10)
        = Cert.ResultSpec.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelArray

end
-- ==== Proof.RefRow.lean ====
/-
  The reference, read row by row.

  The reference works on the `[8, 8192, 768]` array directly: every reduction runs over the last axis, every
  broadcast copies along it, and the two products contract it against a weight's second axis.  So entry `(b, s, d)`
  of its result depends on the row `x (b, s, ·)` only, and is `RowSpec.rowOut` of that row: the host's sums start from
  the literal zero, and its `1 / (1 + e^(-z))` is the logistic of the extended reals.
-/
import proofs.«111590_j6803228196916_1_alg».proof.Proof.Gen.ReferenceIdeal.Read
import proofs.«111590_j6803228196916_1_alg».proof.Proof.RowSpec
import proofs.«111590_j6803228196916_1_alg».proof.Proof.ResultSpec

noncomputable section

namespace Cert.RefRow

open Cert.ReferenceIdeal Cert.ReferenceIdeal.Read Idealize.ShloMosaic Idealize.ShloMosaic.ValueIdx Cert.RowSpec

/-- Two indices of a rank-3 (or lower) shape agree when their coordinates do; at literal coordinates each is `rfl`. -/
macro "idx_rfl" : tactic =>
  `(tactic| (funext a; refine Fin.ext ?_; first
    | (match a with | ⟨0, _⟩ => rfl | ⟨1, _⟩ => rfl | ⟨2, _⟩ => rfl)
    | (match a with | ⟨0, _⟩ => rfl | ⟨1, _⟩ => rfl)
    | (match a with | ⟨0, _⟩ => rfl)))

/-- The literal one. -/
theorem ofBits_one : Ideal.ofBits .f32 0x3F800000#32 = 1 := IdealRules.sign_bit.ideal_onePat .f32

variable (x0 : (⟨S8x8192x768, .f32⟩ : BufTy).Contents (Elt Ideal)) (x1 : (⟨S384x768, .f32⟩ : BufTy).Contents (Elt Ideal))
  (x2 : (⟨S768x384, .f32⟩ : BufTy).Contents (Elt Ideal)) (x3 x4 : (⟨S768, .f32⟩ : BufTy).Contents (Elt Ideal))
  (x5 x6 : (⟨S384, .f32⟩ : BufTy).Contents (Elt Ideal))

/-- Row `(b, s)` of the input. -/
abbrev xrow (b : Fin 8) (s : Fin 8192) : Fin 768 → EReal := fun k => x0 (ix3 b s k)

/-- The first mean, kept as `[8, 8192, 1]`. -/
theorem mean1 (b : Fin 8) (s : Fin 8192) :
    val_main_v3 (F := Ideal) x0 (ix3 b s (0 : Fin 1)) = mean (Ideal.ofBits .f32 0x44400000#32) (xrow x0 b s) := by
  rw [val_main_v3_apply, val_main_v1_apply, val_main_v0_apply, val_main_v2_apply, val_main_cst_0_apply, val_main_cst_apply]
  show Ideal.div (Ideal.ofBits .f32 0x00000000#32 + _) _ = _
  rw [Ideal.ofBits_zero_f32, zero_add]
  unfold mean
  refine congrArg (Ideal.div · _) (Finset.sum_congr rfl fun k _ => congrArg x0 ?_)
  idx_rfl

/-- The centered input (computed twice by the reference: for the variance and for the result). -/
theorem centered1 (b : Fin 8) (s : Fin 8192) (d : Fin 768) :
    val_main_v5 (F := Ideal) x0 (ix3 b s d) = centered (Ideal.ofBits .f32 0x44400000#32) (xrow x0 b s) d := by
  rw [val_main_v5_apply, val_main_v4_apply]
  show _ - _ = _
  rw [show idx_main_v4 (ix3 b s d) = ix3 b s (0 : Fin 1) from by idx_rfl, mean1]
  rfl

theorem centered1' (b : Fin 8) (s : Fin 8192) (d : Fin 768) :
    val_main_v12 (F := Ideal) x0 (ix3 b s d) = centered (Ideal.ofBits .f32 0x44400000#32) (xrow x0 b s) d := by
  rw [val_main_v12_apply, val_main_v11_apply]
  show _ - _ = _
  rw [show idx_main_v11 (ix3 b s d) = ix3 b s (0 : Fin 1) from by idx_rfl, mean1]
  rfl

/-- The first variance. -/
theorem variance1 (b : Fin 8) (s : Fin 8192) :
    val_main_v10 (F := Ideal) x0 (ix3 b s (0 : Fin 1)) = variance (Ideal.ofBits .f32 0x44400000#32) (xrow x0 b s) := by
  rw [val_main_v10_apply, val_main_v8_apply, val_main_v7_apply, val_main_v9_apply, val_main_cst_2_apply, val_main_cst_1_apply]
  show Ideal.div (Ideal.ofBits .f32 0x00000000#32 + _) _ = _
  rw [Ideal.ofBits_zero_f32, zero_add]
  unfold variance
  refine congrArg (Ideal.div · _) (Finset.sum_congr rfl fun k _ => ?_)
  rw [val_main_v6_apply, show idx_main_v7 (idx_main_v8 (ix3 b s (0 : Fin 1))) k = ix3 b s k from by idx_rfl, centered1]
  rfl

/-- The first normalisation. -/
theorem ln1 (b : Fin 8) (s : Fin 8192) (d : Fin 768) :
    val_main_v23 (F := Ideal) x0 x3 x4 (ix3 b s d)
      = layerNorm (Ideal.ofBits .f32 0x44400000#32) (Ideal.ofBits .f32 0x3727C5AC#32) (fun k => x3 (ix1 k)) (fun k => x4 (ix1 k)) (xrow x0 b s) d := by
  rw [val_main_v23_apply, val_main_v20_apply, val_main_v17_apply, val_main_v16_apply, val_main_v15_apply, val_main_v14_apply,
    val_main_v22_apply, val_main_v21_apply, val_main_v19_apply, val_main_v18_apply, val_main_v13_apply, val_main_cst_3_apply,
    centered1',
    show idx_main_v16 (ix3 b s d) = ix3 b s (0 : Fin 1) from by idx_rfl, variance1,
    show idx_main_v18 (idx_main_v19 (ix3 b s d)) = ix1 d from by idx_rfl,
    show idx_main_v21 (idx_main_v22 (ix3 b s d)) = ix1 d from by idx_rfl]
  rfl

/-- The first projection: the normalised row against row `j` of `W₁`. -/
theorem proj1 (b : Fin 8) (s : Fin 8192) (j : Fin 384) :
    val_main_v24 (F := Ideal) x0 x1 x3 x4 (ix3 b s j)
      = ∑ k : Fin 768, layerNorm (Ideal.ofBits .f32 0x44400000#32) (Ideal.ofBits .f32 0x3727C5AC#32) (fun k => x3 (ix1 k)) (fun k => x4 (ix1 k)) (xrow x0 b s) k
          * x1 (ix2 j k) := by
  rw [val_main_v24_apply]
  refine Finset.sum_congr rfl fun k _ => ?_
  rw [show lidx_main_v24 (ix3 b s j) k = ix3 b s k from by idx_rfl, show ridx_main_v24 (ix3 b s j) k = ix2 j k from by idx_rfl, ln1]

/-- The hidden row: swish of the first projection. -/
theorem hidden1 (b : Fin 8) (s : Fin 8192) (j : Fin 384) :
    val_main_v31 (F := Ideal) x0 x1 x3 x4 (ix3 b s j)
      = hidden (Ideal.ofBits .f32 0x44400000#32) (Ideal.ofBits .f32 0x3727C5AC#32) (fun k => x3 (ix1 k)) (fun k => x4 (ix1 k))
          (fun j k => x1 (ix2 j k)) (xrow x0 b s) j := by
  rw [val_main_v31_apply, val_main_v30_apply, val_main_v29_apply, val_main_v28_apply, val_main_v27_apply, val_main_v26_apply,
    val_main_v25_apply, val_main_cst_4_apply, val_main_cst_5_apply, proj1]
  show _ * Ideal.div (Ideal.ofBits .f32 0x3F800000#32) (Ideal.ofBits .f32 0x3F800000#32 + Ideal.exp (-_)) = _
  rw [ofBits_one]
  rfl

/-- The hidden row, as a function. -/
abbrev hrow (b : Fin 8) (s : Fin 8192) : Fin 384 → EReal :=
  hidden (Ideal.ofBits .f32 0x44400000#32) (Ideal.ofBits .f32 0x3727C5AC#32) (fun k => x3 (ix1 k)) (fun k => x4 (ix1 k))
    (fun j k => x1 (ix2 j k)) (xrow x0 b s)

theorem mean2 (b : Fin 8) (s : Fin 8192) :
    val_main_v35 (F := Ideal) x0 x1 x3 x4 (ix3 b s (0 : Fin 1)) = mean (Ideal.ofBits .f32 0x43C00000#32) (hrow x0 x1 x3 x4 b s) := by
  rw [val_main_v35_apply, val_main_v33_apply, val_main_v32_apply, val_main_v34_apply, val_main_cst_7_apply, val_main_cst_6_apply]
  show Ideal.div (Ideal.ofBits .f32 0x00000000#32 + _) _ = _
  rw [Ideal.ofBits_zero_f32, zero_add]
  unfold mean
  refine congrArg (Ideal.div · _) (Finset.sum_congr rfl fun k _ => ?_)
  rw [show idx_main_v32 (idx_main_v33 (ix3 b s (0 : Fin 1))) k = ix3 b s k from by idx_rfl, hidden1]

theorem centered2 (b : Fin 8) (s : Fin 8192) (j : Fin 384) :
    val_main_v37 (F := Ideal) x0 x1 x3 x4 (ix3 b s j) = centered (Ideal.ofBits .f32 0x43C00000#32) (hrow x0 x1 x3 x4 b s) j := by
  rw [val_main_v37_apply, val_main_v36_apply, hidden1]
  show _ - _ = _
  rw [show idx_main_v36 (ix3 b s j) = ix3 b s (0 : Fin 1) from by idx_rfl, mean2]
  rfl

theorem centered2' (b : Fin 8) (s : Fin 8192) (j : Fin 384) :
    val_main_v44 (F := Ideal) x0 x1 x3 x4 (ix3 b s j) = centered (Ideal.ofBits .f32 0x43C00000#32) (hrow x0 x1 x3 x4 b s) j := by
  rw [val_main_v44_apply, val_main_v43_apply, hidden1]
  show _ - _ = _
  rw [show idx_main_v43 (ix3 b s j) = ix3 b s (0 : Fin 1) from by idx_rfl, mean2]
  rfl

theorem variance2 (b : Fin 8) (s : Fin 8192) :
    val_main_v42 (F := Ideal) x0 x1 x3 x4 (ix3 b s (0 : Fin 1)) = variance (Ideal.ofBits .f32 0x43C00000#32) (hrow x0 x1 x3 x4 b s) := by
  rw [val_main_v42_apply, val_main_v40_apply, val_main_v39_apply, val_main_v41_apply, val_main_cst_9_apply, val_main_cst_8_apply]
  show Ideal.div (Ideal.ofBits .f32 0x00000000#32 + _) _ = _
  rw [Ideal.ofBits_zero_f32, zero_add]
  unfold variance
  refine congrArg (Ideal.div · _) (Finset.sum_congr rfl fun k _ => ?_)
  rw [val_main_v38_apply, show idx_main_v39 (idx_main_v40 (ix3 b s (0 : Fin 1))) k = ix3 b s k from by idx_rfl, centered2]
  rfl

theorem ln2 (b : Fin 8) (s : Fin 8192) (j : Fin 384) :
    val_main_v55 (F := Ideal) x0 x1 x3 x4 x5 x6 (ix3 b s j)
      = layerNorm (Ideal.ofBits .f32 0x43C00000#32) (Ideal.ofBits .f32 0x3727C5AC#32) (fun k => x5 (ix1 k)) (fun k => x6 (ix1 k))
          (hrow x0 x1 x3 x4 b s) j := by
  rw [val_main_v55_apply, val_main_v52_apply, val_main_v49_apply, val_main_v48_apply, val_main_v47_apply, val_main_v46_apply,
    val_main_v54_apply, val_main_v53_apply, val_main_v51_apply, val_main_v50_apply, val_main_v45_apply, val_main_cst_10_apply,
    centered2',
    show idx_main_v48 (ix3 b s j) = ix3 b s (0 : Fin 1) from by idx_rfl, variance2,
    show idx_main_v50 (idx_main_v51 (ix3 b s j)) = ix1 j from by idx_rfl,
    show idx_main_v53 (idx_main_v54 (ix3 b s j)) = ix1 j from by idx_rfl]
  rfl

theorem proj2 (b : Fin 8) (s : Fin 8192) (d : Fin 768) :
    val_main_v56 (F := Ideal) x0 x1 x2 x3 x4 x5 x6 (ix3 b s d)
      = ∑ k : Fin 384, layerNorm (Ideal.ofBits .f32 0x43C00000#32) (Ideal.ofBits .f32 0x3727C5AC#32) (fun k => x5 (ix1 k)) (fun k => x6 (ix1 k))
          (hrow x0 x1 x3 x4 b s) k * x2 (ix2 d k) := by
  rw [val_main_v56_apply]
  refine Finset.sum_congr rfl fun k _ => ?_
  rw [show lidx_main_v56 (ix3 b s d) k = ix3 b s k from by idx_rfl, show ridx_main_v56 (ix3 b s d) k = ix2 d k from by idx_rfl, ln2]

/-- The reference's result at `(b, s, d)` is the row function of row `(b, s)` at `d`. -/
theorem result_apply (b : Fin 8) (s : Fin 8192) (d : Fin 768) :
    val_main_v64 (F := Ideal) x0 x1 x2 x3 x4 x5 x6 (ix3 b s d)
      = rowOut (Ideal.ofBits .f32 0x44400000#32) (Ideal.ofBits .f32 0x43C00000#32) (Ideal.ofBits .f32 0x3727C5AC#32)
          (fun k => x3 (ix1 k)) (fun k => x4 (ix1 k)) (fun k => x5 (ix1 k)) (fun k => x6 (ix1 k))
          (fun j k => x1 (ix2 j k)) (fun d k => x2 (ix2 d k)) (xrow x0 b s) d := by
  rw [val_main_v64_apply, val_main_v63_apply, val_main_v62_apply, val_main_v61_apply, val_main_v60_apply, val_main_v59_apply,
    val_main_v58_apply, val_main_v57_apply, val_main_cst_11_apply, val_main_cst_12_apply, proj2]
  show _ * Ideal.div (Ideal.ofBits .f32 0x3F800000#32) (Ideal.ofBits .f32 0x3F800000#32 + Ideal.exp (-_)) + _ = _
  rw [ofBits_one]
  rfl

/-- The reference's result array is `ResultSpec.result` of its seven arguments. -/
theorem result_eq : val_main_v64 (F := Ideal) x0 x1 x2 x3 x4 x5 x6 = Cert.ResultSpec.result x0 x1 x2 x3 x4 x5 x6 := by
  funext i
  obtain ⟨b, s, d, rfl⟩ : ∃ (b : Fin 8) (s : Fin 8192) (d : Fin 768), i = ix3 b s d := ⟨i 0, i 1, i 2, eq_ix3 i⟩
  exact result_apply x0 x1 x2 x3 x4 x5 x6 b s d

end Cert.RefRow

end
-- ==== Proof.lean ====
/-
  A two-block residual network on rows: the kernel against its reference, over the extended reals.

  Both programs send every row `x` of the `[8, 8192, 768]` input to
    `swish (LN₂ (swish (LN₁ x · W₁ᵀ)) · W₂ᵀ) + x`,
  where `LN` is layer normalisation along the row (mean and variance by division by the row length, `rsqrt` of the
  variance plus a shared literal, scale and shift) and `swish z = z · logistic z` (`RowSpec.rowOut`;
  `ResultSpec.result` is the array of these rows).  The kernel flattens the input to `[65536, 768]`, transposes the
  weights on the host, and processes 64 blocks of 1024 rows, each through lane sums, two matrix products into a zero
  accumulator and the logistic; the reference works on the three-dimensional array with host reductions, two
  `dot_general`s and `1 / (1 + e^(-z))`.  On the extended reals these are the same sums and the same functions, entry by
  entry, whatever the inputs: no law that needs finiteness is used, so the precondition is never opened.

  * `RowKernel`, `KernelRow`: the kernel body's stored block, entry by entry, is the row function of the loaded rows.
  * `KernelArray`: the 64 blocks tile the output; with the host reshapes and transposes read at an index, the kernel's
    result buffer is `ResultSpec.result` of the arguments.
  * `RefRow`: the reference's result, read one operation at a time, is the same.
  The three frames are the generated ones (the reference's is its run with the result dropped), and the idealization
  rewrote nothing.
-/
import proofs.«111590_j6803228196916_1_alg».proof.Defs
import proofs.«111590_j6803228196916_1_alg».proof.Proof.Gen.Kernel
import proofs.«111590_j6803228196916_1_alg».proof.Proof.Gen.Kernel.Skeleton
import proofs.«111590_j6803228196916_1_alg».proof.Proof.Gen.Kernel.Launch
import proofs.«111590_j6803228196916_1_alg».proof.Proof.Gen.Kernel.Points
import proofs.«111590_j6803228196916_1_alg».proof.Proof.Gen.Kernel.Frame
import proofs.«111590_j6803228196916_1_alg».proof.Proof.Gen.KernelIdeal
import proofs.«111590_j6803228196916_1_alg».proof.Proof.Gen.KernelIdeal.Skeleton
import proofs.«111590_j6803228196916_1_alg».proof.Proof.Gen.KernelIdeal.Launch
import proofs.«111590_j6803228196916_1_alg».proof.Proof.Gen.KernelIdeal.Points
import proofs.«111590_j6803228196916_1_alg».proof.Proof.Gen.KernelIdeal.Frame
import proofs.«111590_j6803228196916_1_alg».proof.Proof.Gen.ReferenceIdeal
import proofs.«111590_j6803228196916_1_alg».proof.Proof.Gen.Pre_finite_inputs
import proofs.«111590_j6803228196916_1_alg».proof.Proof.Gen.ReferenceIdeal.Run
import proofs.«111590_j6803228196916_1_alg».proof.Proof.Gen.ReferenceIdeal.Read
import proofs.«111590_j6803228196916_1_alg».proof.Proof.KernelArray
import proofs.«111590_j6803228196916_1_alg».proof.Proof.RefRow
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with `ResultSpec.result` of the arguments in their
    result buffers. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.RefRow.result_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
